-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : IVec S800000 32) (main_arg2 : IVec S800000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S5000x64 : Shape := ⟨2, ![5000, 64]⟩
abbrev S1x64 : Shape := ⟨2, ![1, 64]⟩

abbrev nBuf : Space → Nat
  | .hbm => 39
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 57
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S1x64, .f32⟩
  | .hbm, ⟨27, _⟩ => ⟨S50000x64, .f32⟩
  | .hbm, ⟨28, _⟩ => ⟨S50000x64, .f32⟩
  | .hbm, ⟨29, _⟩ => ⟨S50000x64, .f32⟩
  | .hbm, ⟨30, _⟩ => ⟨S50000x64, .f32⟩
  | .hbm, ⟨31, _⟩ => ⟨S1x64, .f32⟩
  | .hbm, ⟨32, _⟩ => ⟨S50000x64, .f32⟩
  | .hbm, ⟨33, _⟩ => ⟨S50000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S1x64, .f32⟩
  | .hbm, ⟨50, _⟩ => ⟨S50000x64, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Layer.lean ====
/-
  One layer of the network, as a function read at an index.

  A layer takes node features x and aggregated neighbour features a (both n rows of 64 entries), two 64 × 64
  weight matrices and two bias vectors of 64 entries. Row r of its result depends on row r of x and of a only:
  with h = x + a,

      hidden k = tanh (∑ q, h (r, q) · w1 (q, k) + b1 k)
      out (r, j) = ∑ k, hidden k · w2 (k, j) + b2 j

  over the extended reals. Because a row of the result is a function of the same row of the inputs, the layer of
  a block of rows is the block of the layer: this is what lets a row-tiled computation be compared with the
  computation on the whole array.

  The network applies the layer twice; between the two applications the aggregation (a gather of rows along the
  edges' sources followed by a sum into the edges' destinations) is applied to the first layer's result. The
  aggregation enters only as a function from node features to node features, never opened.
-/
import Idealize.ShloMosaic.PureOps.Ideal
import Idealize.ShloMosaic.Lib.ValueIdx

noncomputable section

open scoped BigOperators

namespace Cert.Gin

open Idealize.ShloMosaic Idealize.ShloMosaic.ValueIdx

/-- One row of a layer's result at column `j`, from the row `h` of summed features. -/
def rowOut (h : Fin 64 → EReal) (w1 : (⟨2, ![64, 64]⟩ : Shape).Idx → EReal) (b1 : (⟨1, ![64]⟩ : Shape).Idx → EReal)
    (w2 : (⟨2, ![64, 64]⟩ : Shape).Idx → EReal) (b2 : (⟨1, ![64]⟩ : Shape).Idx → EReal) (j : Fin 64) : EReal :=
  (∑ k : Fin 64, Ideal.tanh ((∑ q : Fin 64, h q * w1 (ix2 q k)) + b1 (ix1 k)) * w2 (ix2 k j)) + b2 (ix1 j)

/-- The layer on `n` rows: entry (r, j) is `rowOut` of row r of `x + a`. -/
def layer {n : ℕ} (x a : (⟨2, ![n, 64]⟩ : Shape).Idx → EReal) (w1 : (⟨2, ![64, 64]⟩ : Shape).Idx → EReal)
    (b1 : (⟨1, ![64]⟩ : Shape).Idx → EReal) (w2 : (⟨2, ![64, 64]⟩ : Shape).Idx → EReal)
    (b2 : (⟨1, ![64]⟩ : Shape).Idx → EReal) : (⟨2, ![n, 64]⟩ : Shape).Idx → EReal :=
  fun i => rowOut (fun q => x (ix2 (i 0 : Fin n) q) + a (ix2 (i 0 : Fin n) q)) w1 b1 w2 b2 (i 1 : Fin 64)

/-- The layer at an index written by coordinates. -/
theorem layer_ix2 {n : ℕ} (x a : (⟨2, ![n, 64]⟩ : Shape).Idx → EReal) (w1 : (⟨2, ![64, 64]⟩ : Shape).Idx → EReal)
    (b1 : (⟨1, ![64]⟩ : Shape).Idx → EReal) (w2 : (⟨2, ![64, 64]⟩ : Shape).Idx → EReal)
    (b2 : (⟨1, ![64]⟩ : Shape).Idx → EReal) (r : Fin n) (j : Fin 64) :
    layer x a w1 b1 w2 b2 (ix2 r j) = rowOut (fun q => x (ix2 r q) + a (ix2 r q)) w1 b1 w2 b2 j := rfl

/-- A layer's entry depends only on its own row of the two feature arrays and on the column: where row `r` of
    `x` and `a` is row `r'` of `x'` and `a'`, the entries at (r, j) and (r', j) agree. -/
theorem layer_congr_row {n n' : ℕ} (x a : (⟨2, ![n, 64]⟩ : Shape).Idx → EReal) (x' a' : (⟨2, ![n', 64]⟩ : Shape).Idx → EReal)
    (w1 : (⟨2, ![64, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (r : Fin n) (r' : Fin n') (j : Fin 64)
    (hx : ∀ q : Fin 64, x (ix2 r q) = x' (ix2 r' q)) (ha : ∀ q : Fin 64, a (ix2 r q) = a' (ix2 r' q)) :
    layer x a w1 b1 w2 b2 (ix2 r j) = layer x' a' w1 b1 w2 b2 (ix2 r' j) := by
  rw [layer_ix2, layer_ix2]
  exact congrArg (fun h => rowOut h w1 b1 w2 b2 j) (funext fun q => by rw [hx q, ha q])

/-- Two layers with the aggregation `agg` applied before each: the whole network on 50000 nodes. -/
def net (agg : ((⟨2, ![50000, 64]⟩ : Shape).Idx → EReal) → (⟨2, ![50000, 64]⟩ : Shape).Idx → EReal)
    (x : (⟨2, ![50000, 64]⟩ : Shape).Idx → EReal)
    (w1 : (⟨2, ![64, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (w1' : (⟨2, ![64, 64]⟩ : Shape).Idx → EReal) (b1' : (⟨1, ![64]⟩ : Shape).Idx → EReal)
    (w2' : (⟨2, ![64, 64]⟩ : Shape).Idx → EReal) (b2' : (⟨1, ![64]⟩ : Shape).Idx → EReal) :
    (⟨2, ![50000, 64]⟩ : Shape).Idx → EReal :=
  layer (layer x (agg x) w1 b1 w2 b2) (agg (layer x (agg x) w1 b1 w2 b2)) w1' b1' w2' b2'

end Cert.Gin

end
-- ==== Proof.BodyValue.lean ====
/-
  What one grid point's body computes, as a function of the blocks it loads.

  The body adds the block of node features and the block of aggregated features, multiplies by the first weight
  matrix into a zero accumulator, adds the first bias as a row repeated down the block, takes tanh, multiplies by
  the second weight matrix into a zero accumulator and adds the second bias the same way. The narrowing of the
  matrix operands to a shorter float format is the identity on extended reals, and a product accumulated into
  zero is the plain sum over the contracted axis. So the stored block is the layer of the loaded blocks.
-/
import proofs.«129979_j79001628442825_1_alg».proof.Proof.Gen.KernelIdeal.Skeleton
import proofs.«129979_j79001628442825_1_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-- The left operand's index at output (i, ·) and contraction index q: its row coordinate is the output's row. -/
theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- The left operand's column coordinate is the contraction index. -/
theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

/-- The right operand's row coordinate is the contraction index. -/
theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

/-- The right operand's column coordinate is the output's column. -/
theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product of a 5000 × 64 block with a 64 × 64 matrix accumulated into zero is, at (p, j), the plain sum over the
    contracted axis of the products of row p of the block with column j of the matrix. -/
theorem matmul_zero_ix2 {φ₁ φ₂ : FTy} (l : FVec Ideal S5000x64 φ₁) (r : FVec Ideal S64x64 φ₂) (p : Fin 5000) (j : Fin 64) :
    matmul (F := Ideal) dot_S5000x64_S64x64_S5000x64_1_0_0_1_n_n none l r (constant (F := Ideal) S5000x64 .f32 0x00000000#32) (ix2 p j)
      = ∑ k : Fin 64, l (ix2 p k) * r (ix2 k j) := by
  show FloatOps.matmul dot_S5000x64_S64x64_S5000x64_1_0_0_1_n_n none l r (constant (F := Ideal) S5000x64 .f32 0x00000000#32) (ix2 p j) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p j) ((ValueIdx.contrEquiv1 dot_S5000x64_S64x64_S5000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S5000x64_S64x64_S5000x64_1_0_0_1_n_n.rhsIdx (ix2 p j) ((ValueIdx.contrEquiv1 dot_S5000x64_S64x64_S5000x64_1_0_0_1_n_n 64 rfl rfl).symm k) = ix2 k j := funext fun a => Fin.ext (by
    match a with
    | ⟨0, _⟩ => exact (rhs_dot_0 _ _).trans hk
    | ⟨1, _⟩ => exact rhs_dot_1 _ _)
  rw [el, er]

/-- A vector of 64 entries repeated down the 5000 rows of a block reads, at (p, j), its entry j. -/
theorem bias_row_ix2 (b : Vec Ideal S64 .f32) (p : Fin 5000) (j : Fin 64) :
    broadcastTo S5000x64 (shapeCast S1x64 b shapeCasts_S64_S1x64) broadcasts_S1x64_S5000x64 (ix2 p j) = b (ix1 j) := by
  rw [broadcastTo_1b_ab_apply, shapeCast_a_1a_apply]

/-- The first region's stored block is the layer of its loaded blocks. -/
theorem pay0_eq (v0 v1 : Vec Ideal S5000x64 .f32) (v5 : Vec Ideal S64x64 .f32) (v8 : Vec Ideal S64 .f32)
    (v14 : Vec Ideal S64x64 .f32) (v17 : Vec Ideal S64 .f32) :
    k0_pay1 (F := Ideal) v0 v1 v5 v8 v14 v17 = Cert.Gin.layer (n := 5000) v0 v1 v5 v8 v14 v17 := by
  funext i
  obtain ⟨p, j, rfl⟩ : ∃ (p : Fin 5000) (j : Fin 64), i = ix2 p j := ⟨i 0, i 1, eq_ix2 i⟩
  rw [Cert.Gin.layer_ix2]
  unfold Cert.Gin.rowOut
  unfold k0_pay1
  rw [addf_apply, bias_row_ix2, matmul_zero_ix2]
  refine congrArg (· + v17 (ix1 j)) (Finset.sum_congr rfl fun k _ => ?_)
  rw [truncf_apply, truncf_apply]
  refine congrArg (fun t => Ideal.tanh t * v14 (ix2 k j)) ?_
  show matmul (F := Ideal) dot_S5000x64_S64x64_S5000x64_1_0_0_1_n_n none _ _ _ (ix2 p k) + broadcastTo S5000x64 (shapeCast S1x64 v8 shapeCasts_S64_S1x64) broadcasts_S1x64_S5000x64 (ix2 p k) = _
  rw [bias_row_ix2, matmul_zero_ix2, shapeCast_self]
  rfl

/-- The second region's stored block is the layer of its loaded blocks. -/
theorem pay1_eq (v0 v2 : Vec Ideal S5000x64 .f32) (v6 : Vec Ideal S64x64 .f32) (v9 : Vec Ideal S64 .f32)
    (v15 : Vec Ideal S64x64 .f32) (v18 : Vec Ideal S64 .f32) :
    k1_pay1 (F := Ideal) v0 v2 v6 v9 v15 v18 = Cert.Gin.layer (n := 5000) v0 v2 v6 v9 v15 v18 := by
  funext i
  obtain ⟨p, j, rfl⟩ : ∃ (p : Fin 5000) (j : Fin 64), i = ix2 p j := ⟨i 0, i 1, eq_ix2 i⟩
  rw [Cert.Gin.layer_ix2]
  unfold Cert.Gin.rowOut
  unfold k1_pay1
  rw [addf_apply, bias_row_ix2, matmul_zero_ix2]
  refine congrArg (· + v18 (ix1 j)) (Finset.sum_congr rfl fun k _ => ?_)
  rw [truncf_apply, truncf_apply]
  refine congrArg (fun t => Ideal.tanh t * v15 (ix2 k j)) ?_
  show matmul (F := Ideal) dot_S5000x64_S64x64_S5000x64_1_0_0_1_n_n none _ _ _ (ix2 p k) + broadcastTo S5000x64 (shapeCast S1x64 v9 shapeCasts_S64_S1x64) broadcasts_S1x64_S5000x64 (ix2 p k) = _
  rw [bias_row_ix2, matmul_zero_ix2, shapeCast_self, shapeCast_self]
  rfl

end Cert.KernelIdeal.BodyValue

end
-- ==== Proof.RegionValue0.lean ====
/-
  The first region's output array, as one function of the arrays the region finds on entry.

  The grid has ten points; point t works on rows 5000 t … 5000 t + 4999 of the node features and of the
  aggregated features, and on the whole of each weight matrix and bias vector. A layer's row depends only on the
  same row of the two feature arrays, so what point t writes back is rows 5000 t … 5000 t + 4999 of the layer of
  the whole arrays. The ten row blocks cover the array (row r lies in block r / 5000), so the array ends holding
  the layer of the entry arrays.
-/
import proofs.«129979_j79001628442825_1_alg».proof.Proof.Gen.KernelIdeal.Frame
import proofs.«129979_j79001628442825_1_alg».proof.Proof.BodyValue
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index maps over the grid: the two feature windows and the output window sit at row block t and
    column block 0; the weight and bias windows always at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem flushed_eq (c : Dev nD) (t : Fin cfg0.N) :
    (dat0 V c).flushed 6 t = ((cfg0.win 6).blk t).view.read (Elt Ideal)
      (Cert.Gin.layer (n := 50000) (V c main_arg0) (V c main_v9) (V c main_arg3) (V c main_arg4) (V c main_arg5) (V c main_arg6)) := by
  show (cfg0.win 6).cut (grid0.coords t) ((dat0 V c).after 6 t) = _
  rw [after0_6]
  unfold out0_6
  rw [View.canon_unit_zero hz2]
  simp only [View.ld_unit_zero (S := S5000x64) hz2, View.ld_unit_zero (S := S64x64) hz2, View.ld_unit_zero (S := S64) hz1]
  rw [Cert.KernelIdeal.BodyValue.pay0_eq]
  obtain ⟨e00, e01, e10, e11, e20, e21, e30, e40, e41, e50, e60, e61⟩ := idx_facts t
  have hN : cfg0.N = 10 := N_0
  have ht : t.val < 10 := lt_of_lt_of_eq t.isLt hN
  -- the weight and bias windows hold their whole arrays at every point
  have hw1 : (iblk0 V c 2 t : S64x64.Idx → EReal) = V c main_arg3 := funext fun y =>
    congrArg (V c main_arg3) (funext fun a => Fin.ext (by
      match a with
      | ⟨0, _⟩ => show win0_2.index t (0 : Fin 2) * 64 + 1 * (y 0).val = (y 0).val; omega
      | ⟨1, _⟩ => show win0_2.index t (1 : Fin 2) * 64 + 1 * (y 1).val = (y 1).val; omega))
  have hb1 : (iblk0 V c 3 t : S64.Idx → EReal) = V c main_arg4 := funext fun y =>
    congrArg (V c main_arg4) (funext fun a => Fin.ext (by
      match a with
      | ⟨0, _⟩ => show win0_3.index t (0 : Fin 1) * 64 + 1 * (y 0).val = (y 0).val; omega))
  have hw2 : (iblk0 V c 4 t : S64x64.Idx → EReal) = V c main_arg5 := funext fun y =>
    congrArg (V c main_arg5) (funext fun a => Fin.ext (by
      match a with
      | ⟨0, _⟩ => show win0_4.index t (0 : Fin 2) * 64 + 1 * (y 0).val = (y 0).val; omega
      | ⟨1, _⟩ => show win0_4.index t (1 : Fin 2) * 64 + 1 * (y 1).val = (y 1).val; omega))
  have hb2 : (iblk0 V c 5 t : S64.Idx → EReal) = V c main_arg6 := funext fun y =>
    congrArg (V c main_arg6) (funext fun a => Fin.ext (by
      match a with
      | ⟨0, _⟩ => show win0_5.index t (0 : Fin 1) * 64 + 1 * (y 0).val = (y 0).val; omega))
  funext j
  obtain ⟨p, k, rfl⟩ : ∃ (p : Fin 5000) (k : Fin 64), j = ix2 p k := ⟨j 0, j 1, eq_ix2 j⟩
  have hp : p.val < 5000 := p.isLt
  -- entry (p, k) of block t is entry (5000 t + p, k) of the array
  have hemb : ((cfg0.win 6).blk t).view.emb (ix2 p k) = ix2 (⟨t.val * 5000 + p.val, by omega⟩ : Fin 50000) k :=
    funext fun a => Fin.ext (by
      match a with
      | ⟨0, _⟩ => show win0_6.index t (0 : Fin 2) * 5000 + 1 * p.val = t.val * 5000 + p.val; omega
      | ⟨1, _⟩ => show win0_6.index t (1 : Fin 2) * 64 + 1 * k.val = k.val; omega)
  show Cert.Gin.layer (n := 5000) (iblk0 V c 0 t) (iblk0 V c 1 t) (iblk0 V c 2 t) (iblk0 V c 3 t) (iblk0 V c 4 t) (iblk0 V c 5 t) (ix2 p k)
    = Cert.Gin.layer (n := 50000) (V c main_arg0) (V c main_v9) (V c main_arg3) (V c main_arg4) (V c main_arg5) (V c main_arg6)
        (((cfg0.win 6).blk t).view.emb (ix2 p k))
  rw [hemb, hw1, hb1, hw2, hb2]
  refine Cert.Gin.layer_congr_row (iblk0 V c 0 t) (iblk0 V c 1 t) (V c main_arg0) (V c main_v9) (V c main_arg3) (V c main_arg4)
    (V c main_arg5) (V c main_arg6) p ⟨t.val * 5000 + p.val, by omega⟩ k (fun q => ?_) (fun q => ?_)
  · exact congrArg (V c main_arg0) (funext fun a => Fin.ext (by
      match a with
      | ⟨0, _⟩ => show win0_0.index t (0 : Fin 2) * 5000 + 1 * p.val = t.val * 5000 + p.val; omega
      | ⟨1, _⟩ => show win0_0.index t (1 : Fin 2) * 64 + 1 * q.val = q.val; omega))
  · exact congrArg (V c main_v9) (funext fun a => Fin.ext (by
      match a with
      | ⟨0, _⟩ => show win0_1.index t (0 : Fin 2) * 5000 + 1 * p.val = t.val * 5000 + p.val; omega
      | ⟨1, _⟩ => show win0_1.index t (1 : Fin 2) * 64 + 1 * q.val = q.val; omega))

/-- An index of the array is in point `t`'s output block iff each coordinate is in the block's range on its axis. -/
theorem mem_blk (t : Fin cfg0.N) (i : S50000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v10).slice (win0_6.rect t)).set ↔ _
  rw [View.set_slice_whole, Rect.mem_set_unit]
  exact Iff.rfl

/-- Row r lies in the block of point r / 5000: the ten output blocks cover the array. -/
theorem cover (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 10 := N_0
  have hlt : (i 0).val / 5000 < cfg0.N := by rw [hN]; omega
  obtain ⟨e00, e01, e10, e11, e20, e21, e30, e40, e41, e50, e60, e61⟩ := idx_facts ⟨(i 0).val / 5000, hlt⟩
  refine ⟨⟨(i 0).val / 5000, hlt⟩, flush0_6 _, ?_⟩
  rw [mem_blk]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, hlt⟩ (1 : Fin 2) * 64 ≤ (i 1).val
      ∧ (i 1).val < win0_6.index ⟨(i 0).val / 5000, hlt⟩ (1 : Fin 2) * 64 + 64
    rw [e61]
    omega

/-- THE FIRST REGION'S OUTPUT ARRAY after the region: the layer of the arrays the region found on entry. -/
theorem value (c : Dev nD) :
    (dat0 V c).arrAt 6 cfg0.N
      = Cert.Gin.layer (n := 50000) (V c main_arg0) (V c main_v9) (V c main_arg3) (V c main_arg4) (V c main_arg5) (V c main_arg6) :=
  (dat0 V c).arrAt_eq_of_cover 6 _ (fun t _ => flushed_eq V c t) cover

end Cert.KernelIdeal.Region0

end
-- ==== Proof.RegionValue1.lean ====
/-
  The second region's output array, as one function of the arrays the region finds on entry.

  The grid has ten points; point t works on rows 5000 t … 5000 t + 4999 of the node features and of the
  aggregated features, and on the whole of each weight matrix and bias vector. A layer's row depends only on the
  same row of the two feature arrays, so what point t writes back is rows 5000 t … 5000 t + 4999 of the layer of
  the whole arrays. The ten row blocks cover the array (row r lies in block r / 5000), so the array ends holding
  the layer of the entry arrays.
-/
import proofs.«129979_j79001628442825_1_alg».proof.Proof.Gen.KernelIdeal.Frame
import proofs.«129979_j79001628442825_1_alg».proof.Proof.BodyValue
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index maps over the grid: the two feature windows and the output window sit at row block t and
    column block 0; the weight and bias windows always at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem flushed_eq (c : Dev nD) (t : Fin cfg1.N) :
    (dat1 V c).flushed 6 t = ((cfg1.win 6).blk t).view.read (Elt Ideal)
      (Cert.Gin.layer (n := 50000) (V c main_v10) (V c main_v20) (V c main_arg7) (V c main_arg8) (V c main_arg9) (V c main_arg10)) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S64x64) hz2, View.ld_unit_zero (S := S64) hz1]
  rw [Cert.KernelIdeal.BodyValue.pay1_eq]
  obtain ⟨e00, e01, e10, e11, e20, e21, e30, e40, e41, e50, e60, e61⟩ := idx_facts t
  have hN : cfg1.N = 10 := N_1
  have ht : t.val < 10 := lt_of_lt_of_eq t.isLt hN
  -- the weight and bias windows hold their whole arrays at every point
  have hw1 : (iblk1 V c 2 t : S64x64.Idx → EReal) = V c main_arg7 := funext fun y =>
    congrArg (V c main_arg7) (funext fun a => Fin.ext (by
      match a with
      | ⟨0, _⟩ => show win1_2.index t (0 : Fin 2) * 64 + 1 * (y 0).val = (y 0).val; omega
      | ⟨1, _⟩ => show win1_2.index t (1 : Fin 2) * 64 + 1 * (y 1).val = (y 1).val; omega))
  have hb1 : (iblk1 V c 3 t : S64.Idx → EReal) = V c main_arg8 := funext fun y =>
    congrArg (V c main_arg8) (funext fun a => Fin.ext (by
      match a with
      | ⟨0, _⟩ => show win1_3.index t (0 : Fin 1) * 64 + 1 * (y 0).val = (y 0).val; omega))
  have hw2 : (iblk1 V c 4 t : S64x64.Idx → EReal) = V c main_arg9 := funext fun y =>
    congrArg (V c main_arg9) (funext fun a => Fin.ext (by
      match a with
      | ⟨0, _⟩ => show win1_4.index t (0 : Fin 2) * 64 + 1 * (y 0).val = (y 0).val; omega
      | ⟨1, _⟩ => show win1_4.index t (1 : Fin 2) * 64 + 1 * (y 1).val = (y 1).val; omega))
  have hb2 : (iblk1 V c 5 t : S64.Idx → EReal) = V c main_arg10 := funext fun y =>
    congrArg (V c main_arg10) (funext fun a => Fin.ext (by
      match a with
      | ⟨0, _⟩ => show win1_5.index t (0 : Fin 1) * 64 + 1 * (y 0).val = (y 0).val; omega))
  funext j
  obtain ⟨p, k, rfl⟩ : ∃ (p : Fin 5000) (k : Fin 64), j = ix2 p k := ⟨j 0, j 1, eq_ix2 j⟩
  have hp : p.val < 5000 := p.isLt
  -- entry (p, k) of block t is entry (5000 t + p, k) of the array
  have hemb : ((cfg1.win 6).blk t).view.emb (ix2 p k) = ix2 (⟨t.val * 5000 + p.val, by omega⟩ : Fin 50000) k :=
    funext fun a => Fin.ext (by
      match a with
      | ⟨0, _⟩ => show win1_6.index t (0 : Fin 2) * 5000 + 1 * p.val = t.val * 5000 + p.val; omega
      | ⟨1, _⟩ => show win1_6.index t (1 : Fin 2) * 64 + 1 * k.val = k.val; omega)
  show Cert.Gin.layer (n := 5000) (iblk1 V c 0 t) (iblk1 V c 1 t) (iblk1 V c 2 t) (iblk1 V c 3 t) (iblk1 V c 4 t) (iblk1 V c 5 t) (ix2 p k)
    = Cert.Gin.layer (n := 50000) (V c main_v10) (V c main_v20) (V c main_arg7) (V c main_arg8) (V c main_arg9) (V c main_arg10)
        (((cfg1.win 6).blk t).view.emb (ix2 p k))
  rw [hemb, hw1, hb1, hw2, hb2]
  refine Cert.Gin.layer_congr_row (iblk1 V c 0 t) (iblk1 V c 1 t) (V c main_v10) (V c main_v20) (V c main_arg7) (V c main_arg8)
    (V c main_arg9) (V c main_arg10) p ⟨t.val * 5000 + p.val, by omega⟩ k (fun q => ?_) (fun q => ?_)
  · exact congrArg (V c main_v10) (funext fun a => Fin.ext (by
      match a with
      | ⟨0, _⟩ => show win1_0.index t (0 : Fin 2) * 5000 + 1 * p.val = t.val * 5000 + p.val; omega
      | ⟨1, _⟩ => show win1_0.index t (1 : Fin 2) * 64 + 1 * q.val = q.val; omega))
  · exact congrArg (V c main_v20) (funext fun a => Fin.ext (by
      match a with
      | ⟨0, _⟩ => show win1_1.index t (0 : Fin 2) * 5000 + 1 * p.val = t.val * 5000 + p.val; omega
      | ⟨1, _⟩ => show win1_1.index t (1 : Fin 2) * 64 + 1 * q.val = q.val; omega))

/-- An index of the array is in point `t`'s output block iff each coordinate is in the block's range on its axis. -/
theorem mem_blk (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v21).slice (win1_6.rect t)).set ↔ _
  rw [View.set_slice_whole, Rect.mem_set_unit]
  exact Iff.rfl

/-- Row r lies in the block of point r / 5000: the ten output blocks cover the array. -/
theorem cover (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  have hlt : (i 0).val / 5000 < cfg1.N := by rw [hN]; omega
  obtain ⟨e00, e01, e10, e11, e20, e21, e30, e40, e41, e50, e60, e61⟩ := idx_facts ⟨(i 0).val / 5000, hlt⟩
  refine ⟨⟨(i 0).val / 5000, hlt⟩, flush1_6 _, ?_⟩
  rw [mem_blk]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [e60]
    show (i 0).val / 5000 * 5000 ≤ (i 0).val ∧ (i 0).val < (i 0).val / 5000 * 5000 + 5000
    omega
  | ⟨1, _⟩ =>
    show win1_6.index ⟨(i 0).val / 5000, hlt⟩ (1 : Fin 2) * 64 ≤ (i 1).val
      ∧ (i 1).val < win1_6.index ⟨(i 0).val / 5000, hlt⟩ (1 : Fin 2) * 64 + 64
    rw [e61]
    omega

/-- THE SECOND REGION'S OUTPUT ARRAY after the region: the layer of the arrays the region found on entry. -/
theorem value (c : Dev nD) :
    (dat1 V c).arrAt 6 cfg1.N
      = Cert.Gin.layer (n := 50000) (V c main_v10) (V c main_v20) (V c main_arg7) (V c main_arg8) (V c main_arg9) (V c main_arg10) :=
  (dat1 V c).arrAt_eq_of_cover 6 _ (fun t _ => flushed_eq V c t) cover

end Cert.KernelIdeal.Region1

end
-- ==== Proof.KernelValue.lean ====
/-
  The kernel program's result, read through its run.

  @main is: the aggregation of the input features on the host, the first region, the aggregation of the first
  region's output on the host, the second region. Each region leaves in its output array the layer of the arrays
  it found on entry; a host stretch leaves every buffer it does not write as it was and its last buffer at the
  aggregation of what it read; no stretch and no region writes an argument. So the result buffer ends at the
  network of the arguments, with the aggregation along the edges given by the two integer arguments.
-/
import proofs.«129979_j79001628442825_1_alg».proof.Proof.Gen.KernelIdeal.Frame
import proofs.«129979_j79001628442825_1_alg».proof.Proof.RegionValue0
import proofs.«129979_j79001628442825_1_alg».proof.Proof.RegionValue1
import proofs.«129979_j79001628442825_1_alg».proof.Proof.LaunchValue
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.ShloMosaic.StableHlo
open Idealize.SL.Sem

/-- The aggregation along the edges `src → dst`: rows of `x` gathered at the sources (a negative source wrapped
    by the node count) and summed into the destinations' rows of a zero array. -/
def agg (src dst : (⟨S800000, .i32⟩ : BufTy).Contents (Elt Ideal)) (x : (⟨S50000x64, .f32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

variable (m : (ℓ : Loc nD τ sig) → Buf (Elt Ideal) ℓ) (ρ : Dev nD → PrngReg)

/-! ## Entry of the first region: the arguments as launched, the aggregate of the input features -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl

theorem W1_v9 (c : Dev nD) : W1 m ρ c (Proc.devRef .tc main_v9)
    = agg (m ((c : Thread nD τ).loc main_arg1)) (m ((c : Thread nD τ).loc main_arg2)) (m ((c : Thread nD τ).loc main_arg0)) := by
  show StableHlo.after hostOps0 (W0 m ρ c) (Proc.devRef .tc main_v9) = _
  after_results_simp <;> rfl

/-! ## Exit of the first region -/

/-- The first region's output is the first layer of the arguments. -/
theorem W2_v10 (c : Dev nD) : W2 m ρ c (Proc.devRef .tc main_v10)
    = Cert.Gin.layer (n := 50000) (m ((c : Thread nD τ).loc main_arg0))
        (agg (m ((c : Thread nD τ).loc main_arg1)) (m ((c : Thread nD τ).loc main_arg2)) (m ((c : Thread nD τ).loc main_arg0)))
        (m ((c : Thread nD τ).loc main_arg3)) (m ((c : Thread nD τ).loc main_arg4)) (m ((c : Thread nD τ).loc main_arg5)) (m ((c : Thread nD τ).loc main_arg6)) := by
  refine (W2_arr m ρ c 6).trans ((Cert.KernelIdeal.Region0.value (V1 m ρ) c).trans ?_)
  show Cert.Gin.layer (n := 50000) (W1 m ρ c (Proc.devRef .tc main_arg0)) (W1 m ρ c (Proc.devRef .tc main_v9))
    (W1 m ρ c (Proc.devRef .tc main_arg3)) (W1 m ρ c (Proc.devRef .tc main_arg4)) (W1 m ρ c (Proc.devRef .tc main_arg5)) (W1 m ρ c (Proc.devRef .tc main_arg6)) = _
  rw [W1_arg0, W1_v9, W1_arg3, W1_arg4, W1_arg5, W1_arg6]

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)

/-! ## Entry of the second region -/

theorem W3_v10 (c : Dev nD) : W3 m ρ c (Proc.devRef .tc main_v10) = W2 m ρ c (Proc.devRef .tc main_v10) := by
  show StableHlo.after hostOps1 (W2 m ρ c) (Proc.devRef .tc main_v10) = _
  after_results_simp <;> rfl

theorem W3_v20 (c : Dev nD) : W3 m ρ c (Proc.devRef .tc main_v20)
    = agg (W2 m ρ c (Proc.devRef .tc main_arg1)) (W2 m ρ c (Proc.devRef .tc main_arg2)) (W2 m ρ c (Proc.devRef .tc main_v10)) := by
  show StableHlo.after hostOps1 (W2 m ρ c) (Proc.devRef .tc main_v20) = _
  after_results_simp <;> rfl

theorem W3_arg7 (c : Dev nD) : W3 m ρ c (Proc.devRef .tc main_arg7) = m ((c : Thread nD τ).loc main_arg7) := by
  refine Eq.trans ?_ (W2_arg7 m ρ c)
  show StableHlo.after hostOps1 (W2 m ρ c) (Proc.devRef .tc main_arg7) = _
  after_results_simp <;> rfl
theorem W3_arg8 (c : Dev nD) : W3 m ρ c (Proc.devRef .tc main_arg8) = m ((c : Thread nD τ).loc main_arg8) := by
  refine Eq.trans ?_ (W2_arg8 m ρ c)
  show StableHlo.after hostOps1 (W2 m ρ c) (Proc.devRef .tc main_arg8) = _
  after_results_simp <;> rfl
theorem W3_arg9 (c : Dev nD) : W3 m ρ c (Proc.devRef .tc main_arg9) = m ((c : Thread nD τ).loc main_arg9) := by
  refine Eq.trans ?_ (W2_arg9 m ρ c)
  show StableHlo.after hostOps1 (W2 m ρ c) (Proc.devRef .tc main_arg9) = _
  after_results_simp <;> rfl
theorem W3_arg10 (c : Dev nD) : W3 m ρ c (Proc.devRef .tc main_arg10) = m ((c : Thread nD τ).loc main_arg10) := by
  refine Eq.trans ?_ (W2_arg10 m ρ c)
  show StableHlo.after hostOps1 (W2 m ρ c) (Proc.devRef .tc main_arg10) = _
  after_results_simp <;> rfl

/-! ## The result -/

/-- The result buffer at the last boundary is the network of the arguments. -/
theorem result (c : Dev nD) : W4 m ρ c (Proc.devRef .tc main_v21)
    = Cert.Gin.net (agg (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 6).trans ((Cert.KernelIdeal.Region1.value (V3 m ρ) c).trans ?_)
  show Cert.Gin.layer (n := 50000) (W3 m ρ c (Proc.devRef .tc main_v10)) (W3 m ρ c (Proc.devRef .tc main_v20))
    (W3 m ρ c (Proc.devRef .tc main_arg7)) (W3 m ρ c (Proc.devRef .tc main_arg8)) (W3 m ρ c (Proc.devRef .tc main_arg9)) (W3 m ρ c (Proc.devRef .tc main_arg10)) = _
  rw [W3_v10, W3_v20, W3_arg7, W3_arg8, W3_arg9, W3_arg10, W2_arg1, W2_arg2, W2_v10]
  rfl

/-- THE KERNEL PROGRAM'S RUN at the ideal instance: every weakly fair execution terminates, nothing faulting, with the
    result buffer at the network of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v21)
        = Cert.Gin.net (agg (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c), (h c).2⟩) (Cert.KernelIdeal.Gen.run_W4 (F := Ideal) m ρ)

end Cert.KernelIdeal.KernelValue

end
-- ==== Proof.RefValue.lean ====
/-
  The reference's result is the network.

  The reference computes, twice over: the aggregation of the current node features (edge sources wrapped into
  range, a gather of source rows, a sum into destination rows starting from zero), the sum of features and
  aggregate, a product with a weight matrix plus a bias repeated down the rows, tanh, a second product plus a
  second bias. Read at an index, each product is the sum over the contracted axis and each bias broadcast reads
  the bias at the column, so each half is the layer and the whole is the network with that aggregation.
-/
import proofs.«129979_j79001628442825_1_alg».proof.Proof.Gen.ReferenceIdeal.Read
import proofs.«129979_j79001628442825_1_alg».proof.Proof.Layer
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The aggregation along the edges `src → dst`: rows of `x` gathered at the sources (a negative source wrapped
    by the node count) and summed into the destinations' rows of a zero array. -/
def agg (src dst : (⟨S800000, .i32⟩ : BufTy).Contents (Elt Ideal)) (x : (⟨S50000x64, .f32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-! ### The index functions of the reference's stages, at an index written by coordinates -/

/-- The left operand of a product stage is read at the result's row and the contracted position. -/
theorem lidx_eq (r : Fin 50000) (j k : Fin 64) : Read.lidx_main_v11 (ix2 r j) k = ix2 r k :=
  funext fun a => Fin.ext (by match a with | ⟨0, _⟩ => rfl | ⟨1, _⟩ => rfl)

/-- The right operand of a product stage is read at the contracted position and the result's column. -/
theorem ridx_eq (r : Fin 50000) (j k : Fin 64) : Read.ridx_main_v11 (ix2 r j) k = ix2 k j :=
  funext fun a => Fin.ext (by match a with | ⟨0, _⟩ => rfl | ⟨1, _⟩ => rfl)

/-- A bias, repeated to one row and then down the rows, is read at the result's column. -/
theorem bidx_eq (r : Fin 50000) (j : Fin 64) : Read.idx_main_v12 (Read.idx_main_v13 (ix2 r j)) = ix1 j :=
  funext fun a => Fin.ext (by match a with | ⟨0, _⟩ => rfl)

/-- The same three facts under the names the later stages give their (identical) index functions. -/
theorem lidx16_eq (r : Fin 50000) (j k : Fin 64) : Read.lidx_main_v16 (ix2 r j) k = ix2 r k := lidx_eq r j k
theorem ridx16_eq (r : Fin 50000) (j k : Fin 64) : Read.ridx_main_v16 (ix2 r j) k = ix2 k j := ridx_eq r j k
theorem bidx18_eq (r : Fin 50000) (j : Fin 64) : Read.idx_main_v17 (Read.idx_main_v18 (ix2 r j)) = ix1 j := bidx_eq r j
theorem lidx31_eq (r : Fin 50000) (j k : Fin 64) : Read.lidx_main_v31 (ix2 r j) k = ix2 r k := lidx_eq r j k
theorem ridx31_eq (r : Fin 50000) (j k : Fin 64) : Read.ridx_main_v31 (ix2 r j) k = ix2 k j := ridx_eq r j k
theorem bidx33_eq (r : Fin 50000) (j : Fin 64) : Read.idx_main_v32 (Read.idx_main_v33 (ix2 r j)) = ix1 j := bidx_eq r j
theorem lidx36_eq (r : Fin 50000) (j k : Fin 64) : Read.lidx_main_v36 (ix2 r j) k = ix2 r k := lidx_eq r j k
theorem ridx36_eq (r : Fin 50000) (j k : Fin 64) : Read.ridx_main_v36 (ix2 r j) k = ix2 k j := ridx_eq r j k
theorem bidx38_eq (r : Fin 50000) (j : Fin 64) : Read.idx_main_v37 (Read.idx_main_v38 (ix2 r j)) = ix1 j := bidx_eq r j

/-- The first aggregation stage is `agg` of the arguments. -/
theorem v9_eq (x0 : (⟨S50000x64, .f32⟩ : BufTy).Contents (Elt Ideal)) (x1 x2 : (⟨S800000, .i32⟩ : BufTy).Contents (Elt Ideal)) :
    Read.val_main_v9 (F := Ideal) x0 x1 x2 = agg x1 x2 x0 := rfl

/-- The first half of the reference is the layer on the arguments, with the aggregation of the node features. -/
theorem v19_eq (x0 : (⟨S50000x64, .f32⟩ : BufTy).Contents (Elt Ideal)) (x1 x2 : (⟨S800000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    Read.val_main_v19 (F := Ideal) x0 x1 x2 x3 x4 x5 x6 = Cert.Gin.layer x0 (agg x1 x2 x0) x3 x4 x5 x6 := by
  funext i
  obtain ⟨r, j, rfl⟩ : ∃ (r : Fin 50000) (j : Fin 64), i = ix2 r j := ⟨i 0, i 1, eq_ix2 i⟩
  rw [Cert.Gin.layer_ix2]
  unfold Cert.Gin.rowOut
  rw [Read.val_main_v19_apply, Read.val_main_v16_apply, Read.val_main_v18_apply, Read.val_main_v17_apply,
    bidx18_eq, Ideal.addf_def]
  refine congrArg (fun s => s + x6 (ix1 j)) (Finset.sum_congr rfl fun k _ => ?_)
  rw [lidx16_eq, ridx16_eq, Read.val_main_v15_apply, Read.val_main_v14_apply, Read.val_main_v11_apply,
    Read.val_main_v13_apply, Read.val_main_v12_apply, bidx_eq, Ideal.hostUnary_tanh_def, Ideal.addf_def]
  refine congrArg (fun s => Ideal.tanh (s + x4 (ix1 k)) * x5 (ix2 k j)) (Finset.sum_congr rfl fun q _ => ?_)
  rw [lidx_eq, ridx_eq, Read.val_main_v10_apply, v9_eq, Ideal.addf_def]

/-- The second aggregation stage is `agg` of the first half's result. -/
theorem v29_eq (x0 : (⟨S50000x64, .f32⟩ : BufTy).Contents (Elt Ideal)) (x1 x2 : (⟨S800000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    Read.val_main_v29 (F := Ideal) x0 x1 x2 x3 x4 x5 x6 = agg x1 x2 (Read.val_main_v19 (F := Ideal) x0 x1 x2 x3 x4 x5 x6) := rfl

/-- The second half of the reference is the layer on the first half's result, with the aggregation of that result. -/
theorem v39_eq (x0 : (⟨S50000x64, .f32⟩ : BufTy).Contents (Elt Ideal)) (x1 x2 : (⟨S800000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal)) :
    Read.val_main_v39 (F := Ideal) x0 x1 x2 x3 x4 x5 x6 x7 x8 x9 x10
      = Cert.Gin.layer (Read.val_main_v19 (F := Ideal) x0 x1 x2 x3 x4 x5 x6)
          (agg x1 x2 (Read.val_main_v19 (F := Ideal) x0 x1 x2 x3 x4 x5 x6)) x7 x8 x9 x10 := by
  funext i
  obtain ⟨r, j, rfl⟩ : ∃ (r : Fin 50000) (j : Fin 64), i = ix2 r j := ⟨i 0, i 1, eq_ix2 i⟩
  rw [Cert.Gin.layer_ix2]
  unfold Cert.Gin.rowOut
  rw [Read.val_main_v39_apply, Read.val_main_v36_apply, Read.val_main_v38_apply, Read.val_main_v37_apply,
    bidx38_eq, Ideal.addf_def]
  refine congrArg (fun s => s + x10 (ix1 j)) (Finset.sum_congr rfl fun k _ => ?_)
  rw [lidx36_eq, ridx36_eq, Read.val_main_v35_apply, Read.val_main_v34_apply, Read.val_main_v31_apply,
    Read.val_main_v33_apply, Read.val_main_v32_apply, bidx33_eq, Ideal.hostUnary_tanh_def, Ideal.addf_def]
  refine congrArg (fun s => Ideal.tanh (s + x8 (ix1 k)) * x9 (ix2 k j)) (Finset.sum_congr rfl fun q _ => ?_)
  rw [lidx31_eq, ridx31_eq, Read.val_main_v30_apply, v29_eq, Ideal.addf_def]

/-- The reference's last stage, as a function of the arguments, is the network with the aggregation `agg`. -/
theorem result_eq (x0 : (⟨S50000x64, .f32⟩ : BufTy).Contents (Elt Ideal)) (x1 x2 : (⟨S800000, .i32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal)) :
    Read.val_main_v39 (F := Ideal) x0 x1 x2 x3 x4 x5 x6 x7 x8 x9 x10
      = Cert.Gin.net (agg x1 x2) x0 x3 x4 x5 x6 x7 x8 x9 x10 := by
  rw [v39_eq, v19_eq]
  rfl

end Cert.ReferenceIdeal.RefValue

end
-- ==== Proof.lean ====
/-
  The certificate: a two-layer graph network computed by a row-tiled kernel equals its plain reference over the
  extended reals.

  Both programs aggregate the node features along the edges on the host with the same operations (sources
  wrapped into range, a gather of source rows, a sum into destination rows of a zero array) and then apply a
  layer: features plus aggregate, times a weight matrix, plus a bias, tanh, times a second weight matrix, plus a
  second bias; and both do this twice. The kernel program applies each layer in a region of ten grid points, each
  working on 5000 rows, with the matrix operands narrowed to a shorter float format and the products accumulated
  into zero; the reference applies it to the whole array. Over the extended reals the narrowing is the identity
  and a product accumulated into zero is the plain sum, and a row of a layer depends only on the same row of its
  inputs, so each region leaves the layer of the arrays it found (Proof/BodyValue, Proof/RegionValue0,
  Proof/RegionValue1) and the kernel program's result is the network of the arguments (Proof/KernelValue). The
  reference's result, read one operation at a time, is the same network (Proof/RefValue). The aggregation is
  never opened: it is the same function on both sides. No law of the extended reals beyond the definitions is
  used, so the finiteness of the inputs is not needed.

  The three frames: the two kernel programs' are the generated frame certificates; the reference's is its run
  with the result dropped. The idealization rewrote nothing, so there is nothing to preserve.
-/
import proofs.«129979_j79001628442825_1_alg».proof.Defs
import proofs.«129979_j79001628442825_1_alg».proof.Proof.Gen.Kernel
import proofs.«129979_j79001628442825_1_alg».proof.Proof.Gen.Kernel.Skeleton
import proofs.«129979_j79001628442825_1_alg».proof.Proof.Gen.Kernel.Launch
import proofs.«129979_j79001628442825_1_alg».proof.Proof.Gen.Kernel.Points
import proofs.«129979_j79001628442825_1_alg».proof.Proof.Gen.Kernel.Frame
import proofs.«129979_j79001628442825_1_alg».proof.Proof.Gen.KernelIdeal
import proofs.«129979_j79001628442825_1_alg».proof.Proof.Gen.KernelIdeal.Skeleton
import proofs.«129979_j79001628442825_1_alg».proof.Proof.Gen.KernelIdeal.Launch
import proofs.«129979_j79001628442825_1_alg».proof.Proof.Gen.KernelIdeal.Points
import proofs.«129979_j79001628442825_1_alg».proof.Proof.Gen.KernelIdeal.Frame
import proofs.«129979_j79001628442825_1_alg».proof.Proof.Gen.ReferenceIdeal
import proofs.«129979_j79001628442825_1_alg».proof.Proof.Gen.Pre_finite_inputs
import proofs.«129979_j79001628442825_1_alg».proof.Proof.Gen.ReferenceIdeal.Run
import proofs.«129979_j79001628442825_1_alg».proof.Proof.Gen.ReferenceIdeal.Read
import proofs.«129979_j79001628442825_1_alg».proof.Proof.KernelValue
import proofs.«129979_j79001628442825_1_alg».proof.Proof.RefValue
import Idealize.ShloMosaic.Adequacy
import Idealize.ShloMosaic.Init

noncomputable section

namespace Cert.Proof

open Idealize.ShloMosaic Idealize.SL.Sem

/-- The two programs' aggregations are one function: the same operations with the same dimension numbers. -/
theorem agg_eq (src dst : (⟨Cert.KernelIdeal.S800000, .i32⟩ : BufTy).Contents (Elt Ideal))
    (x : (⟨Cert.KernelIdeal.S50000x64, .f32⟩ : BufTy).Contents (Elt Ideal)) :
    Cert.KernelIdeal.KernelValue.agg src dst x = Cert.ReferenceIdeal.RefValue.agg src dst x := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the network of the arguments, which agree. -/
theorem algebraic : Cert.algebraic_KernelIdeal_ReferenceIdeal := by
  intro m ρ m' ρ' _ hagree
  refine ⟨fun c => Cert.Gin.net
      (Cert.KernelIdeal.KernelValue.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v39_eq, Cert.ReferenceIdeal.RefValue.result_eq, h0, h1, h2, h3, h4, h5, h6, h7, h8, h9, h10]
  exact congrArg (fun g => Cert.Gin.net g _ _ _ _ _ _ _ _ _) (funext fun x => (agg_eq _ _ x).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
